-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S50000x16x256 : Shape := ⟨3, ![50000, 16, 256]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x16x256 : S_.BroadcastsInDim S50000x16x256 (![] : Fin 0 → Fin S50000x16x256.rank)
  reducesTo_S50000x16x256_S_d0_1_2 : S50000x16x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x256 .f32) (main_arg1 : FVec F S50000x16x256 .f32) (main_arg2 : FVec F S256x256 .f32) (main_arg3 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x16x256 .f32 := Host.absf main_arg1
  let main_cst_0 : FVec F S_ .f32 := constant S_ .f32 0x7F800000#32
  let main_v5 : FVec F S50000x16x256 .f32 := broadcastInDim S50000x16x256 ![] bcast_S_S50000x16x256 main_cst_0
  let main_v6 : IVec S50000x16x256 1 := cmpf .olt main_v4 main_v5
  let main_c_1 : IVec S_ 1 := constantI S_ 1 1#1
  let main_v7 : IVec S_ 1 := (fun x v => Host.reduce IntOp.andi x v reducesTo_S50000x16x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x256 : Shape := ⟨2, ![50000, 256]⟩
abbrev S50000x16x256 : Shape := ⟨3, ![50000, 16, 256]⟩
abbrev S256x256 : Shape := ⟨2, ![256, 256]⟩
abbrev S256 : Shape := ⟨1, ![256]⟩
abbrev S1x256 : Shape := ⟨2, ![1, 256]⟩
abbrev S800x16x256 : Shape := ⟨3, ![800, 16, 256]⟩
abbrev S800x256 : Shape := ⟨2, ![800, 256]⟩

abbrev nBuf : Space → Nat
  | .hbm => 6
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S50000x16x256, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S50000x256, .f32⟩
  | .local _ .vmem, ⟨0, _⟩ => ⟨S800x16x256, .f32⟩
  | .local _ .vmem, ⟨1, _⟩ => ⟨S800x16x256, .f32⟩
  | .local _ .vmem, ⟨2, _⟩ => ⟨S800x256, .f32⟩
  | .local _ .vmem, ⟨3, _⟩ => ⟨S800x256, .f32⟩
  | .local _ .vmem, ⟨4, _⟩ => ⟨S256x256, .f32⟩
  | .local _ .vmem, ⟨5, _⟩ => ⟨S1x256, .f32⟩
  | .local _ .vmem, ⟨6, _⟩ => ⟨S800x256, .f32⟩
  | .local _ .vmem, ⟨7, _⟩ => ⟨S800x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![63], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S800x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S1x256 : S256.ShapeCasts S1x256
  inb_S800x16x256_S800x16x256_0_0_0 : ∀ a, (![0, 0, 0] : Fin 3 → Nat) a + S800x16x256.size a ≤ S800x16x256.size a
  h_S800x16x256 : 0 < S800x16x256.numel
  reduces_S800x16x256_S800x256 : S800x16x256.Reduces [1] S800x256
  inb_S800x256_S800x256_0_0 : ∀ a, (![0, 0] : Fin 2 → Nat) a + S800x256.size a ≤ S800x256.size a
  h_S800x256 : 0 < S800x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S800x256 : S1x256.Broadcasts S800x256
  dot_S800x256_S256x256_S800x256_1_0_0_1_n_n_wf : DotDims.WF S800x256 S256x256 S800x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S800x16x256.size a < S50000x16x256.size a
  hwx0_0 : ∀ i : grid0.Coords, EltTy.bits .f32 = 32 ∨ (Rect.unit (s := S50000x16x256) (fun a => cc0_transform_0 i a * S800x16x256.size a) (fun a => (Pipeline.Clip.of (cc0_transform_0 i a) (S800x16x256.size a) (S50000x16x256.size a)).extent (S800x16x256.size a)) fun a => Pipeline.Clip.inb (Pipeline.Clip.ok_of (hstart0_0 i a))).WholeWords (EltTy.packing .f32)
  hwxs0_0 : ∀ i : grid0.Coords, EltTy.bits .f32 = 32 ∨ (Rect.unit (s := S800x16x256) (fun _ => 0) (fun a => (Pipeline.Clip.of (cc0_transform_0 i a) (S800x16x256.size a) (S50000x16x256.size a)).extent (S800x16x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S800x256.size a < S50000x256.size a
  hwx0_1 : ∀ i : grid0.Coords, EltTy.bits .f32 = 32 ∨ (Rect.unit (s := S50000x256) (fun a => cc0_transform_1 i a * S800x256.size a) (fun a => (Pipeline.Clip.of (cc0_transform_1 i a) (S800x256.size a) (S50000x256.size a)).extent (S800x256.size a)) fun a => Pipeline.Clip.inb (Pipeline.Clip.ok_of (hstart0_1 i a))).WholeWords (EltTy.packing .f32)
  hwxs0_1 : ∀ i : grid0.Coords, EltTy.bits .f32 = 32 ∨ (Rect.unit (s := S800x256) (fun _ => 0) (fun a => (Pipeline.Clip.of (cc0_transform_1 i a) (S800x256.size a) (S50000x256.size a)).extent (S800x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S800x256.size a < S50000x256.size a
  hwx0_4 : ∀ i : grid0.Coords, EltTy.bits .f32 = 32 ∨ (Rect.unit (s := S50000x256) (fun a => cc0_transform_4 i a * S800x256.size a) (fun a => (Pipeline.Clip.of (cc0_transform_4 i a) (S800x256.size a) (S50000x256.size a)).extent (S800x256.size a)) fun a => Pipeline.Clip.inb (Pipeline.Clip.ok_of (hstart0_4 i a))).WholeWords (EltTy.packing .f32)
  hwxs0_4 : ∀ i : grid0.Coords, EltTy.bits .f32 = 32 ∨ (Rect.unit (s := S800x256) (fun _ => 0) (fun a => (Pipeline.Clip.of (cc0_transform_4 i a) (S800x256.size a) (S50000x256.size a)).extent (S800x256.size a)) fun a => (Nat.zero_add _).trans_le (Pipeline.Clip.extent_le (Pipeline.Clip.ok_of (hstart0_4 i a)))).WholeWords (EltTy.packing .f32)

variable [Facts₀]

def dot_S800x256_S256x256_S800x256_1_0_0_1_n_n : DotDims S800x256 S256x256 S800x256 where
  lhsContracting := [1]
  rhsContracting := [0]
  lhsNonContracting := [0]
  rhsNonContracting := [1]
  lhsBatch := []
  rhsBatch := []
  wf := dot_S800x256_S256x256_S800x256_1_0_0_1_n_n_wf

abbrev win0_0 : Pipeline.Window sig grid0 :=
  Pipeline.Window.ofSpecClip (Memref.whole main_arg1) S800x16x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg0) S800x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v1) S800x256.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x256 : Shape := ⟨2, ![50000, 256]⟩
abbrev S50000x16x256 : Shape := ⟨3, ![50000, 16, 256]⟩
abbrev S256x256 : Shape := ⟨2, ![256, 256]⟩
abbrev S256 : Shape := ⟨1, ![256]⟩
abbrev S_ : Shape := ⟨0, ![]⟩
abbrev S1x256 : Shape := ⟨2, ![1, 256]⟩

abbrev nBuf : Space → Nat
  | .hbm => 17
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x16x256, .f32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S50000x256, .f32⟩
  | .hbm, ⟨6, _⟩ => ⟨S_, .f32⟩
  | .hbm, ⟨7, _⟩ => ⟨S50000x256, .f32⟩
  | .hbm, ⟨8, _⟩ => ⟨S50000x256, .f32⟩
  | .hbm, ⟨9, _⟩ => ⟨S50000x256, .f32⟩
  | .hbm, ⟨10, _⟩ => ⟨S50000x256, .f32⟩
  | .hbm, ⟨11, _⟩ => ⟨S1x256, .f32⟩
  | .hbm, ⟨12, _⟩ => ⟨S50000x256, .f32⟩
  | .hbm, ⟨13, _⟩ => ⟨S50000x256, .f32⟩
  | .hbm, ⟨14, _⟩ => ⟨S_, .f32⟩
  | .hbm, ⟨15, _⟩ => ⟨S50000x256, .f32⟩
  | .hbm, ⟨16, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  reducesTo_S50000x16x256_S50000x256_d1 : S50000x16x256.ReducesTo [1] S50000x256
  h_S_ : 0 < S_.numel
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x256_S256x256_S50000x256_1_0_0_1_n_n_wf : DotDims.WF S50000x256 S256x256 S50000x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelBits.lean ====
/-
  The word-level kernel runs and leaves its four argument arrays as it found them.

  The kernel is one pipelined call over 63 row blocks. At each grid point its body loads the five current staging
  buffers whole (the neighbours' block, the features' block, the weights, the bias row and, unused, the result's
  buffer) and stores the result's buffer whole with one pure function of the first four loads. The last row block
  reaches past the arrays' end, so the tail of its staging buffers holds words nothing names, and the matrix product
  carries them into the result: what the result's buffer holds cannot be named. The frame does not need it. The
  proof data below are relational and say nothing of any buffer's contents: at every point, whatever the five buffers
  hold, the body runs and hands each back at some contents. The arrays that are only read end as they began, and the
  one array the pipeline does not stage is untouched.
-/
import proofs.«180250_j64364379897856_1_alg».proof.Defs
import proofs.«180250_j64364379897856_1_alg».proof.Proof.Gen.Kernel.Frame
import proofs.«180250_j64364379897856_1_alg».proof.Proof.Gen.Kernel.Skeleton
import proofs.«180250_j64364379897856_1_alg».proof.Proof.Gen.Pre_finite_inputs
import Idealize.ShloMosaic.Lib.Pipeline.FrameBody
import Idealize.ShloMosaic.Lib.Pipeline.Value
import Idealize.ShloMosaic.Lib.Tactic

set_option maxRecDepth 16384

noncomputable section

namespace Cert.Kernel.BitsFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The body's triple -/

set_option maxHeartbeats 1000000 in
/-- The body on whole staging memrefs: the four inputs at contents `x0 … x3`, the result's at anything; it ends with
    the inputs as they were and the result's buffer at the body's function of them. -/
theorem sound_kernel (c : Dev nD) (E : Set ℕ) (i : grid0.Coords)
    (arg1 : Memref sig .tc .vmem S800x16x256 .f32) (harg1 : arg1.IsWhole) (arg2 : Memref sig .tc .vmem S800x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S800x256 .f32) (harg5 : arg5.IsWhole)
    (x0 : Vec F S800x16x256 .f32) (x1 : Vec F S800x256 .f32) (x2 : Vec F S256x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay1 x0 x1 x2 x3)) -∗ K ⟨⟩))
      ⊢ wp frame (wpE (defs₀ (F := F)) Variants.none c none) E (cc0__agg_mm_kernel i arg1 harg1 arg2 harg2 arg3 harg3 arg4 harg4 arg5 harg5) K := by
  simp only [cc0__agg_mm_kernel_eq_skeleton]; unfold cc0__agg_mm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- one store through the whole buffer covers it, so the buffer reads as that store's payload; each whole load
  -- reads its buffer's contents
  rw [View.read_writes_eq_canon _ _ _ (fun y => ⟨_, List.mem_singleton_self _,
    View.mem_set_unit_zero zeros2 inb_S800x256_S800x256_0_0 y⟩), View.canon_unit_zero zeros2]
  simp only [View.readAt_eq_ld, View.ld_unit_zero (S := S800x16x256) zeros3, View.ld_unit_zero (S := S800x256) zeros2,
    View.ld_unit_zero (S := S256x256) zeros2, View.ld_unit_zero (S := S1x256) zeros2]

/-! ## The proof data: nothing is said of any buffer's contents -/

variable (m : (ℓ : Loc nD τ sig) → Buf (Elt F) ℓ) (ρ : Dev nD → PrngReg)

/-- The relational proof data of the one pipeline on core `c`: the arrays as the region finds them; of what the body
    leaves in a staging buffer, nothing (the relation holds of any contents found and any left); the region's own
    invariant; nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-! ## The body obligation, at a generic point and at any contents of the buffers -/

/-- The body at any point, the five current staging buffers at ANY contents `Y w`: the body's triple applies (it asks
    nothing of the contents), and each buffer comes back at some contents; the invariant and what the core owes pass
    through unread. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0)
        ∗ owns (c : Thread nD τ) (st0_1 t) fullShare (Y 1)
        ∗ owns (c : Thread nD τ) (st0_2 t) fullShare (Y 2)
        ∗ owns (c : Thread nD τ) (st0_3 t) fullShare (Y 3)
        ∗ owns (c : Thread nD τ) (st0_4 t) fullShare (Y 4))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X)
            ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X)
            ∗ (∃ X, ⌜(rdat m c).after 3 t (Y 3) X⌝ ∗ owns (c : Thread nD τ) (st0_3 t) fullShare X)
            ∗ (∃ X, ⌜(rdat m c).after 4 t (Y 4) X⌝ ∗ owns (c : Thread nD τ) (st0_4 t) fullShare X))) := by
  unfold bodyAt0
  rw [show (rdat m c).Φ t.succ = (rdat m c).Φ t.castSucc from rfl,
    show (rdat m c).owesAt () t.succ = (rdat m c).owesAt () t.castSucc from rfl]
  iintro ⟨HΦ, Ho, H0, H1, H2, H3, H4⟩
  iapply (sound_kernel c Set.univ (grid0.coords t) _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  · iexists _; isplitr
    swap; · iexact H4
    ipureintro; trivial

/-- The library's relational body obligation, at every point and every contents the buffers may hold (of which
    nothing is used). -/
theorem body_obligation (c : Dev nD) : (rdat (F := F) m c).BodyObligation (defs₀ (F := F)) Variants.none () Set.univ := fun t Y _ => by
  rw [bigSep_W0, bigSep_W0]
  exact sound_body m c t Y

/-! ## The run and the frame -/

set_option backward.isDefEq.respectTransparency.types false in
/-- From any memory with zero counters every weakly fair execution of @main terminates, nothing faulting, and every final
    state has each array of the pipeline at some contents it may hold after the write-backs (an input: its entry contents)
    and every other unscoped buffer as the region found it. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := fun c => body_obligation m c) (hshare := fun c => (rdat m c).share_full fun _ => rfl)
    (howed := fun _ _ => rfl) (V := V m) (hmain := hmain m Variants.none) (hA := fun _ _ => rfl) (hΦ := fun _ _ => rfl)

/-- The frame at any float instance: the three staged input arrays end at their entry contents (an input array is never
    written), the bias array is no window's and bypasses the region; each is then as launched, no host operation before the
    region writing it. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 1 rfl).trans (V_main_arg0 m c),
      (Pipeline.RDat.FramePost.arr_in h c 0 rfl).trans (V_main_arg1 m c),
      (Pipeline.RDat.FramePost.arr_in h c 2 rfl).trans (V_main_arg2 m c),
      ((h c).2 main_arg3 (Pipeline.mem_restRefs_of main_arg3 (by decide) (by decide))).trans (V_main_arg3 m c)⟩) (run_main m ρ)

/-- The word-level program's frame claim. -/
theorem frame : Cert.frame_Kernel := fun m ρ _ => frame_any m ρ

end Cert.Kernel.BitsFrame

end
-- ==== Proof.IdealBody.lean ====
/-
  The kernel body's triple, at any float instance.

  One grid point of the kernel loads its five staging buffers whole (the neighbours' block, the features' block,
  the weights, the bias row, and — unused — the result's buffer) and stores the result's buffer whole with ONE
  pure function of the first four loads: the mean over the neighbour axis added to the features, contracted
  against the weights, the bias added, clamped at zero. So from the four input buffers at any contents
  `x0 … x3` the body ends with them unchanged and the result's buffer holding that function of `x0 … x3`.
-/
import proofs.«180250_j64364379897856_1_alg».proof.Proof.Gen.KernelIdeal.Frame
import proofs.«180250_j64364379897856_1_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body's accesses go through. -/
abbrev rNbr : Rect S800x16x256 := Rect.unit (s := S800x16x256) ![0, 0, 0] S800x16x256.size inb_S800x16x256_S800x16x256_0_0_0
abbrev rRow : Rect S800x256 := Rect.unit (s := S800x256) ![0, 0] S800x256.size inb_S800x256_S800x256_0_0
abbrev rWgt : Rect S256x256 := Rect.unit (s := S256x256) ![0, 0] S256x256.size inb_S256x256_S256x256_0_0
abbrev rBias : Rect S1x256 := Rect.unit (s := S1x256) ![0, 0] S1x256.size inb_S1x256_S1x256_0_0

theorem zeros2 : (![0, 0] : Fin 2 → Nat) = fun _ => 0 := funext fun a => by fin_cases a <;> rfl
theorem zeros3 : (![0, 0, 0] : Fin 3 → Nat) = fun _ => 0 := funext fun a => by fin_cases a <;> rfl

set_option maxHeartbeats 1000000 in
/-- The body on whole staging memrefs: the four inputs at contents `x0 … x3`, the result's at anything; it ends with
    the inputs as they were and the result's buffer at the body's function of them. -/
theorem sound_kernel (c : Dev nD) (E : Set ℕ) (i : grid0.Coords)
    (arg1 : Memref sig .tc .vmem S800x16x256 .f32) (harg1 : arg1.IsWhole) (arg2 : Memref sig .tc .vmem S800x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S800x256 .f32) (harg5 : arg5.IsWhole)
    (x0 : Vec F S800x16x256 .f32) (x1 : Vec F S800x256 .f32) (x2 : Vec F S256x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay1 x0 x1 x2 x3)) -∗ K ⟨⟩))
      ⊢ wp frame (wpE (defs₀ (F := F)) Variants.none c none) E (cc0__agg_mm_kernel i arg1 harg1 arg2 harg2 arg3 harg3 arg4 harg4 arg5 harg5) K := by
  simp only [cc0__agg_mm_kernel_eq_skeleton]; unfold cc0__agg_mm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- one store through the whole buffer covers it, so the buffer reads as that store's payload; each whole load
  -- reads its buffer's contents
  rw [View.read_writes_eq_canon _ _ _ (fun y => ⟨_, List.mem_singleton_self _,
    View.mem_set_unit_zero zeros2 inb_S800x256_S800x256_0_0 y⟩), View.canon_unit_zero zeros2]
  simp only [View.readAt_eq_ld, View.ld_unit_zero (S := S800x16x256) zeros3, View.ld_unit_zero (S := S800x256) zeros2,
    View.ld_unit_zero (S := S256x256) zeros2, View.ld_unit_zero (S := S1x256) zeros2]

end Cert.KernelIdeal.Body

end
-- ==== Proof.IdealGeom.lean ====
/-
  Where each window's block sits in its array.

  The grid's point `t` (of 63) takes block `t` along the node axis: rows `800·t … 800·t + 799`, of which
  `min 800 (50000 − 800·t)` lie inside the 50000-row arrays (all 800 for `t < 62`, 400 for `t = 62`); the other
  axes are taken whole. The weights and the bias row are taken whole at every point. So an entry of a staged block,
  at a row inside the array, is the array's entry at row `800·t + r`.
-/
import proofs.«180250_j64364379897856_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Geom

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {F : FTy → Type} [FloatOps F]
variable (m : (ℓ : Loc nD τ sig) → Buf (Elt F) ℓ)

/-! ## The index maps and the cut sizes, decided over the grid -/

theorem nbr_geom : ∀ t : Fin cfg0.N, win0_0.index t 0 = t.val ∧ win0_0.index t 1 = 0 ∧ win0_0.index t 2 = 0
    ∧ win0_0.xsize (grid0.coords t) 0 = min 800 (50000 - 800 * t.val) ∧ win0_0.xsize (grid0.coords t) 1 = 16
    ∧ win0_0.xsize (grid0.coords t) 2 = 256 :=
  (by decide +kernel : ∀ t : Fin grid0.N, win0_0.index t 0 = t.val ∧ win0_0.index t 1 = 0 ∧ win0_0.index t 2 = 0
    ∧ win0_0.xsize (grid0.coords t) 0 = min 800 (50000 - 800 * t.val) ∧ win0_0.xsize (grid0.coords t) 1 = 16
    ∧ win0_0.xsize (grid0.coords t) 2 = 256)

theorem feat_geom : ∀ t : Fin cfg0.N, win0_1.index t 0 = t.val ∧ win0_1.index t 1 = 0
    ∧ win0_1.xsize (grid0.coords t) 0 = min 800 (50000 - 800 * t.val) ∧ win0_1.xsize (grid0.coords t) 1 = 256 :=
  (by decide +kernel : ∀ t : Fin grid0.N, win0_1.index t 0 = t.val ∧ win0_1.index t 1 = 0
    ∧ win0_1.xsize (grid0.coords t) 0 = min 800 (50000 - 800 * t.val) ∧ win0_1.xsize (grid0.coords t) 1 = 256)

theorem wgt_geom : ∀ t : Fin cfg0.N, win0_2.index t 0 = 0 ∧ win0_2.index t 1 = 0 :=
  (by decide +kernel : ∀ t : Fin grid0.N, win0_2.index t 0 = 0 ∧ win0_2.index t 1 = 0)

theorem bias_geom : ∀ t : Fin cfg0.N, win0_3.index t 0 = 0 ∧ win0_3.index t 1 = 0 :=
  (by decide +kernel : ∀ t : Fin grid0.N, win0_3.index t 0 = 0 ∧ win0_3.index t 1 = 0)

theorem out_geom : ∀ t : Fin cfg0.N, win0_4.index t 0 = t.val ∧ win0_4.index t 1 = 0
    ∧ win0_4.xsize (grid0.coords t) 0 = min 800 (50000 - 800 * t.val) ∧ win0_4.xsize (grid0.coords t) 1 = 256 :=
  (by decide +kernel : ∀ t : Fin grid0.N, win0_4.index t 0 = t.val ∧ win0_4.index t 1 = 0
    ∧ win0_4.xsize (grid0.coords t) 0 = min 800 (50000 - 800 * t.val) ∧ win0_4.xsize (grid0.coords t) 1 = 256)

theorem points : cfg0.N = 63 := N_0

/-! ## The staged blocks read at an index -/

/-- The features' buffer after the fetch at point `t`, at a row inside the array: the features' row `800·t + r`. -/
theorem feat_block (c : Dev nD) (t : Fin cfg0.N) (d : S800x256.Idx → Elt F .f32) (r : Fin 800) (k : Fin 256)
    (hr : r.val < min 800 (50000 - 800 * t.val)) (R : Fin 50000) (hR : R.val = 800 * t.val + r.val) :
    win0_1.fill (grid0.coords t) d (iblk m c 1 t) (ix2 r k) = (V m c main_arg0 : S50000x256.Idx → Elt F .f32) (ix2 R k) := by
  obtain ⟨i0, i1, x0, x1⟩ := feat_geom t
  have hmv : ∀ a, ((ix2 r k : S800x256.Idx) a).val < win0_1.xsize (grid0.coords t) a := fun a => by
    match a with
    | ⟨0, _⟩ => exact (show r.val < win0_1.xsize (grid0.coords t) 0 from by rw [x0]; exact hr)
    | ⟨1, _⟩ => exact (show k.val < win0_1.xsize (grid0.coords t) 1 from by rw [x1]; exact k.isLt)
  unfold Window.fill
  rw [dif_pos ((win0_1.moved_iff _ _).mpr hmv)]
  unfold iblk
  rw [View.read_apply]
  show V m c main_arg0 _ = V m c main_arg0 _
  congr 1
  funext a
  apply Fin.ext
  match a with
  | ⟨0, _⟩ => show win0_1.index t 0 * 800 + 1 * r.val = R.val; rw [i0, hR]; omega
  | ⟨1, _⟩ => show win0_1.index t 1 * 256 + 1 * k.val = k.val; rw [i1]; omega

/-- The neighbours' buffer after the fetch at point `t`, at a row inside the array: the neighbours' row `800·t + r`. -/
theorem nbr_block (c : Dev nD) (t : Fin cfg0.N) (d : S800x16x256.Idx → Elt F .f32) (r : Fin 800) (n : Fin 16) (k : Fin 256)
    (hr : r.val < min 800 (50000 - 800 * t.val)) (R : Fin 50000) (hR : R.val = 800 * t.val + r.val) :
    win0_0.fill (grid0.coords t) d (iblk m c 0 t) (ix3 r n k) = (V m c main_arg1 : S50000x16x256.Idx → Elt F .f32) (ix3 R n k) := by
  obtain ⟨i0, i1, i2, x0, x1, x2⟩ := nbr_geom t
  have hmv : ∀ a, ((ix3 r n k : S800x16x256.Idx) a).val < win0_0.xsize (grid0.coords t) a := fun a => by
    match a with
    | ⟨0, _⟩ => exact (show r.val < win0_0.xsize (grid0.coords t) 0 from by rw [x0]; exact hr)
    | ⟨1, _⟩ => exact (show n.val < win0_0.xsize (grid0.coords t) 1 from by rw [x1]; exact n.isLt)
    | ⟨2, _⟩ => exact (show k.val < win0_0.xsize (grid0.coords t) 2 from by rw [x2]; exact k.isLt)
  unfold Window.fill
  rw [dif_pos ((win0_0.moved_iff _ _).mpr hmv)]
  unfold iblk
  rw [View.read_apply]
  show V m c main_arg1 _ = V m c main_arg1 _
  congr 1
  funext a
  apply Fin.ext
  match a with
  | ⟨0, _⟩ => show win0_0.index t 0 * 800 + 1 * r.val = R.val; rw [i0, hR]; omega
  | ⟨1, _⟩ => show win0_0.index t 1 * 16 + 1 * n.val = n.val; rw [i1]; omega
  | ⟨2, _⟩ => show win0_0.index t 2 * 256 + 1 * k.val = k.val; rw [i2]; omega

/-- The weights' buffer holds the weights. -/
theorem wgt_block (c : Dev nD) (t : Fin cfg0.N) (k o : Fin 256) :
    (iblk m c 2 t : S256x256.Idx → Elt F .f32) (ix2 k o) = (V m c main_arg2 : S256x256.Idx → Elt F .f32) (ix2 k o) := by
  obtain ⟨i0, i1⟩ := wgt_geom t
  unfold iblk
  rw [View.read_apply]
  show V m c main_arg2 _ = V m c main_arg2 _
  congr 1
  funext a
  apply Fin.ext
  match a with
  | ⟨0, _⟩ => show win0_2.index t 0 * 256 + 1 * k.val = k.val; rw [i0]; omega
  | ⟨1, _⟩ => show win0_2.index t 1 * 256 + 1 * o.val = o.val; rw [i1]; omega

/-- The bias row as the region finds it: the host's reshape of the bias vector to one row. -/
theorem bias_row (c : Dev nD) :
    (V m c main_v0 : S1x256.Idx → Elt F .f32) = shapeCast S1x256 (m ((c : Thread nD τ).loc main_arg3)) shapeCasts_S256_S1x256 := by
  dsimp only [V, hostOps0]
  after_results
  rfl

/-- The bias row's buffer holds the bias vector as one row. -/
theorem bias_block (c : Dev nD) (t : Fin cfg0.N) (o : Fin 256) :
    (iblk m c 3 t : S1x256.Idx → Elt F .f32) (ix2 (0 : Fin 1) o) = (V m c main_arg3 : S256.Idx → Elt F .f32) (ix1 o) := by
  obtain ⟨i0, i1⟩ := bias_geom t
  unfold iblk
  rw [View.read_apply]
  have e : (((cfg0.win 3).blk t).view.emb (ix2 (0 : Fin 1) o) : S1x256.Idx) = ix2 (0 : Fin 1) o := funext fun a => Fin.ext (by
    match a with
    | ⟨0, _⟩ => show win0_3.index t 0 * 1 + 1 * 0 = 0; rw [i0]
    | ⟨1, _⟩ => show win0_3.index t 1 * 256 + 1 * o.val = o.val; rw [i1]; omega)
  show (V m c main_v0 : S1x256.Idx → Elt F .f32) _ = _
  rw [e, bias_row, V_main_arg3]
  refine shapeCast_apply _ _ _ (ix1 o) ?_
  rw [Shape.rowMajor_val_one, Shape.rowMajor_val_two]
  show o.val = 0 * 256 + o.val
  omega

/-- The result's block at point `t`, at one of its rows inside the array, is the array's row `800·t + r`. -/
theorem out_block (c : Dev nD) (t : Fin cfg0.N) (G : Buf (Elt F) ((c : Thread nD τ).loc main_v1))
    (j : (win0_4.xblock (grid0.coords t)).Idx) (R : Fin 50000) (o : Fin 256) (hR : R.val = 800 * t.val + (j 0).val) (ho : o.val = (j 1).val) :
    (win0_4.blk t).view.read (Elt F) G j = (G : S50000x256.Idx → Elt F .f32) (ix2 R o) := by
  obtain ⟨i0, i1, -, -⟩ := out_geom t
  rw [View.read_apply]
  refine congrArg (G : S50000x256.Idx → Elt F .f32) (funext fun a => Fin.ext ?_)
  match a with
  | ⟨0, _⟩ => show win0_4.index t 0 * 800 + 1 * (j 0).val = R.val; rw [i0, hR]; omega
  | ⟨1, _⟩ => show win0_4.index t 1 * 256 + 1 * (j 1).val = o.val; rw [i1, ho]; omega

end Cert.KernelIdeal.Geom

end
-- ==== Proof.AggSpec.lean ====
/-
  The function both programs compute, index by index over the extended reals.

  For a node `r` and an output feature `o`:
    out[r, o] = max (∑ k, (features[r, k] + (∑ n, neighbours[r, n, k]) / 16) · weight[k, o] + bias[o]) 0
  — the neighbour axis (16 entries) is averaged, the node's own features are added, the 256-long mixed row is
  contracted against the weight matrix, the bias is added and the result is clamped below at zero.
  A row of the result depends on that row of `features` and of `neighbours` only: this is what lets a blocked
  evaluation over row blocks, the last one reaching past the array's end, agree with the whole-array one.
-/
import Idealize.ShloMosaic.PureOps.Ideal
import Idealize.ShloMosaic.Lib.ValueIdx

noncomputable section

open scoped BigOperators

namespace Cert.AggSpec

open Idealize.ShloMosaic Idealize.ShloMosaic.ValueIdx

/-- The divisor of the neighbour mean, as the programs spell it: the f32 word of 16.0. -/
abbrev sixteen : EReal := Ideal.ofBits .f32 0x41800000#32

/-- One entry of the mixed row: the node's own feature plus the mean of its sixteen neighbours' features.
    Stated for any row count `R`: the whole array has 50000 rows, a block has 800. -/
def mixed {R : Nat} (feat : (⟨2, ![R, 256]⟩ : Shape).Idx → EReal) (nbr : (⟨3, ![R, 16, 256]⟩ : Shape).Idx → EReal)
    (r : Fin R) (k : Fin 256) : EReal :=
  feat (ix2 r k) + Ideal.div (∑ n : Fin 16, nbr (ix3 r n k)) sixteen

/-- One entry of the result: the mixed row contracted against a column of the weights, plus the bias, clamped at zero. -/
def entry {R : Nat} (feat : (⟨2, ![R, 256]⟩ : Shape).Idx → EReal) (nbr : (⟨3, ![R, 16, 256]⟩ : Shape).Idx → EReal)
    (wgt : (⟨2, ![256, 256]⟩ : Shape).Idx → EReal) (bias : Fin 256 → EReal) (r : Fin R) (o : Fin 256) : EReal :=
  max ((∑ k : Fin 256, mixed feat nbr r k * wgt (ix2 k o)) + bias o) 0

/-- The whole result array as one function of the four argument arrays. -/
def out (feat : (⟨2, ![50000, 256]⟩ : Shape).Idx → EReal) (nbr : (⟨3, ![50000, 16, 256]⟩ : Shape).Idx → EReal)
    (wgt : (⟨2, ![256, 256]⟩ : Shape).Idx → EReal) (bias : (⟨1, ![256]⟩ : Shape).Idx → EReal) :
    (⟨2, ![50000, 256]⟩ : Shape).Idx → EReal :=
  fun i => entry feat nbr wgt (fun o => bias (ix1 o)) (i 0) (i 1)

/-- An entry reads only its own row of the two row-indexed arrays: two pairs of arrays that agree on row `r`
    (possibly at different row counts and row positions) give the same entry. -/
theorem entry_congr {R R' : Nat} (feat : (⟨2, ![R, 256]⟩ : Shape).Idx → EReal) (nbr : (⟨3, ![R, 16, 256]⟩ : Shape).Idx → EReal)
    (feat' : (⟨2, ![R', 256]⟩ : Shape).Idx → EReal) (nbr' : (⟨3, ![R', 16, 256]⟩ : Shape).Idx → EReal)
    (wgt : (⟨2, ![256, 256]⟩ : Shape).Idx → EReal) (bias : Fin 256 → EReal) (r : Fin R) (r' : Fin R') (o : Fin 256)
    (hf : ∀ k, feat (ix2 r k) = feat' (ix2 r' k)) (hn : ∀ n k, nbr (ix3 r n k) = nbr' (ix3 r' n k)) :
    entry feat nbr wgt bias r o = entry feat' nbr' wgt bias r' o := by
  unfold entry mixed
  simp only [hf, hn]

end Cert.AggSpec

end
-- ==== Proof.PayloadIdeal.lean ====
/-
  One row block's arithmetic, read at an index over the extended reals.

  The body's stored value is one pure function of its four loaded blocks: the sum over the neighbour axis divided by
  sixteen, added to the features, contracted against the weights (the change of float format in between is the identity
  here), the bias row added, clamped below at zero. Read at row `r` and column `o` of the block this is the
  specification's entry over the block's own rows: each operation is read at an index in turn — the lane sum as a
  finite sum, the matrix product into a zero accumulator as the sum over the contracted coordinate, the bias row
  through its cast and broadcast.
-/
import proofs.«180250_j64364379897856_1_alg».proof.Proof.Gen.KernelIdeal.Skeleton
import proofs.«180250_j64364379897856_1_alg».proof.Proof.AggSpec
import Idealize.ShloMosaic.PureOps.Ideal.Laws
import Idealize.ShloMosaic.Lib.Pipeline.Value
import Idealize.ShloMosaic.Lib.ValueLayout

noncomputable section

open scoped BigOperators

namespace Cert.KernelIdeal.Payload

open Cert.KernelIdeal Cert.KernelIdeal.Gen Idealize.ShloMosaic Idealize.ShloMosaic.ValueIdx

/-! ## The neighbour sum -/

/-- The sum over the neighbour axis of the [800, 16, 256] block, read at (r, k): the sum over the sixteen
    neighbours n of the block at (r, n, k). -/
theorem nbrSum_apply (X0 : FVec Ideal S800x16x256 .f32) (r : Fin 800) (k : Fin 256) :
    multiReduction (F := Ideal) .add [1] S800x256 X0 0x00000000#32 reduces_S800x16x256_S800x256 (.inl rfl) rfl (ix2 r k)
      = ∑ n : Fin 16, X0 (ix3 r n k) := by
  refine (Ideal.multiReduction_add_single X0 0x00000000#32 reduces_S800x16x256_S800x256 (.inl rfl) rfl (ix2 r k)).trans ?_
  refine Finset.sum_congr rfl fun n _ => congrArg X0 (funext fun a => Fin.ext ?_)
  match a with
  | ⟨0, _⟩ => rfl
  | ⟨1, _⟩ => rfl
  | ⟨2, _⟩ => rfl

/-! ## The mixed row -/

/-- The left operand of the product: the node's own features plus the neighbour sum divided by sixteen
    (the change of format to bf16 is the identity over the extended reals). -/
def mixedVec (X0 : FVec Ideal S800x16x256 .f32) (X1 : FVec Ideal S800x256 .f32) : FVec Ideal S800x256 .bf16 :=
  truncf .bf16
    (addf X1
      (divf (multiReduction (F := Ideal) .add [1] S800x256 X0 0x00000000#32 reduces_S800x16x256_S800x256 (.inl rfl) rfl)
        (broadcast S800x256 (Scalar.ofBits (F := Ideal) .f32 0x41800000#32))))
    bitsLt_bf16_f32

/-- Read at (r, k) it is the specification's mixed entry. -/
theorem mixedVec_apply (X0 : FVec Ideal S800x16x256 .f32) (X1 : FVec Ideal S800x256 .f32) (r : Fin 800) (k : Fin 256) :
    mixedVec X0 X1 (ix2 r k) = Cert.AggSpec.mixed X1 X0 r k := by
  show X1 (ix2 r k) + Ideal.div
      (multiReduction (F := Ideal) .add [1] S800x256 X0 0x00000000#32 reduces_S800x16x256_S800x256 (.inl rfl) rfl (ix2 r k))
      (Ideal.ofBits .f32 0x41800000#32) = _
  rw [nbrSum_apply]
  rfl

/-! ## The product -/

/-- The left operand's row axis is the result's row axis. -/
theorem lhs_mm_0 (i : S800x256.Idx) (q : dot_S800x256_S256x256_S800x256_1_0_0_1_n_n.contr.Idx) :
    (dot_S800x256_S256x256_S800x256_1_0_0_1_n_n.lhsIdx i q 0).val = (i 0).val := by
  unfold DotDims.lhsIdx
  rw [dif_neg (show ¬(0 : Fin S800x256.rank) ∈ dot_S800x256_S256x256_S800x256_1_0_0_1_n_n.lhsBatch by decide), dif_pos (show (0 : Fin S800x256.rank) ∈ dot_S800x256_S256x256_S800x256_1_0_0_1_n_n.lhsNonContracting by decide)]
  rfl
/-- The left operand's column axis is the contracted one. -/
theorem lhs_mm_1 (i : S800x256.Idx) (q : dot_S800x256_S256x256_S800x256_1_0_0_1_n_n.contr.Idx) :
    (dot_S800x256_S256x256_S800x256_1_0_0_1_n_n.lhsIdx i q 1).val = (q ⟨0, by decide⟩).val :=
  dot_S800x256_S256x256_S800x256_1_0_0_1_n_n.lhsIdx_val_of_single rfl i q
/-- The right operand's row axis is the contracted one. -/
theorem rhs_mm_0 (i : S800x256.Idx) (q : dot_S800x256_S256x256_S800x256_1_0_0_1_n_n.contr.Idx) :
    (dot_S800x256_S256x256_S800x256_1_0_0_1_n_n.rhsIdx i q 0).val = (q ⟨0, by decide⟩).val :=
  dot_S800x256_S256x256_S800x256_1_0_0_1_n_n.rhsIdx_val_of_single rfl i q
/-- The right operand's column axis is the result's column axis. -/
theorem rhs_mm_1 (i : S800x256.Idx) (q : dot_S800x256_S256x256_S800x256_1_0_0_1_n_n.contr.Idx) :
    (dot_S800x256_S256x256_S800x256_1_0_0_1_n_n.rhsIdx i q 1).val = (i 1).val := by
  unfold DotDims.rhsIdx
  rw [dif_neg (show ¬(1 : Fin S256x256.rank) ∈ dot_S800x256_S256x256_S800x256_1_0_0_1_n_n.rhsBatch by decide), dif_pos (show (1 : Fin S256x256.rank) ∈ dot_S800x256_S256x256_S800x256_1_0_0_1_n_n.rhsNonContracting by decide)]
  rfl

/-- The product into the zero accumulator, read at (r, o): the sum over the 256 contracted coordinates k of the left
    operand at (r, k) times the right operand at (k, o). -/
theorem mm_apply (L : FVec Ideal S800x256 .bf16) (R : FVec Ideal S256x256 .bf16) (r : Fin 800) (o : Fin 256) :
    matmul dot_S800x256_S256x256_S800x256_1_0_0_1_n_n none L R (constant (F := Ideal) S800x256 .f32 0x00000000#32) (ix2 r o)
      = ∑ k : Fin 256, L (ix2 r k) * R (ix2 k o) := by
  simp only [matmul]
  rw [Ideal.matmul_constant_zero_apply, ← Equiv.sum_comp (ValueIdx.contrEquiv1 dot_S800x256_S256x256_S800x256_1_0_0_1_n_n 256 rfl rfl).symm]
  refine Finset.sum_congr rfl fun k _ => ?_
  have hk := ValueIdx.contrEquiv1_symm_val dot_S800x256_S256x256_S800x256_1_0_0_1_n_n 256 rfl rfl k
  have el : dot_S800x256_S256x256_S800x256_1_0_0_1_n_n.lhsIdx (ix2 r o) ((ValueIdx.contrEquiv1 dot_S800x256_S256x256_S800x256_1_0_0_1_n_n 256 rfl rfl).symm k) = ix2 r k := funext fun a => Fin.ext (by
    match a with
    | ⟨0, _⟩ => exact lhs_mm_0 _ _
    | ⟨1, _⟩ => exact (lhs_mm_1 _ _).trans hk)
  have er : dot_S800x256_S256x256_S800x256_1_0_0_1_n_n.rhsIdx (ix2 r o) ((ValueIdx.contrEquiv1 dot_S800x256_S256x256_S800x256_1_0_0_1_n_n 256 rfl rfl).symm k) = ix2 k o := funext fun a => Fin.ext (by
    match a with
    | ⟨0, _⟩ => exact (rhs_mm_0 _ _).trans hk
    | ⟨1, _⟩ => exact rhs_mm_1 _ _)
  rw [el, er]

/-! ## The bias row -/

/-- The [1, 256] bias row, cast to its own shape and broadcast over the 800 rows, read at (r, o): the row at o. -/
theorem bias_apply (X3 : FVec Ideal S1x256 .f32) (r : Fin 800) (o : Fin 256) :
    broadcastTo S800x256 (shapeCast S1x256 X3 shapeCasts_S1x256_S1x256) broadcasts_S1x256_S800x256 (ix2 r o)
      = X3 (ix2 (0 : Fin 1) o) := by
  rw [shapeCast_self]
  exact broadcastTo_1b_ab_apply X3 broadcasts_S1x256_S800x256 r o

/-! ## The payload at an index -/

/-- The value the body stores, read at (r, o): the mixed row of node r contracted against column o of the weights,
    plus the bias at o, clamped below at zero: the specification's entry over the block's rows. -/
theorem pay_apply (X0 : Vec Ideal S800x16x256 .f32) (X1 : Vec Ideal S800x256 .f32) (X2 : Vec Ideal S256x256 .f32) (X3 : Vec Ideal S1x256 .f32)
    (r : Fin 800) (o : Fin 256) :
    Cert.KernelIdeal.Gen.k0_pay1 (F := Ideal) X0 X1 X2 X3 (ix2 r o)
      = Cert.AggSpec.entry X1 X0 X2 (fun o' => X3 (ix2 (0 : Fin 1) o')) r o := by
  unfold Gen.k0_pay1
  show max
      (matmul dot_S800x256_S256x256_S800x256_1_0_0_1_n_n none (mixedVec X0 X1) (truncf .bf16 X2 bitsLt_bf16_f32)
          (constant (F := Ideal) S800x256 .f32 0x00000000#32) (ix2 r o)
        + broadcastTo S800x256 (shapeCast S1x256 X3 shapeCasts_S1x256_S1x256) broadcasts_S1x256_S800x256 (ix2 r o))
      (Ideal.ofBits .f32 0x00000000#32) = _
  rw [mm_apply, bias_apply, Ideal.ofBits_zero_f32]
  unfold Cert.AggSpec.entry
  refine congrArg (fun s => max (s + X3 (ix2 (0 : Fin 1) o)) 0) (Finset.sum_congr rfl fun k _ => ?_)
  rw [mixedVec_apply]
  rfl

end Cert.KernelIdeal.Payload

end
-- ==== Proof.IdealRun.lean ====
/-
  The idealized kernel's run, read as values.

  The grid has 63 points; point `t` works on rows `800·t … 800·t + 799` of the node axis. The array has 50000
  rows, so the last point's block reaches 400 rows past the array's end: its fetches fill only the first 400 rows
  of the staging buffers (the rest holds whatever was there) and its write-back writes only the first 400 rows.
  A result row depends on the same row of the features and of the neighbours only (the contraction runs over the
  feature axis, never over rows), so on the rows inside the array the body leaves exactly the specification's
  rows, whatever the rows past the end hold. Hence after the last write-back the result array is the
  specification's whole-array function of the four argument arrays, and the arguments are unchanged.
-/
import proofs.«180250_j64364379897856_1_alg».proof.Proof.IdealBody
import proofs.«180250_j64364379897856_1_alg».proof.Proof.IdealGeom
import proofs.«180250_j64364379897856_1_alg».proof.Proof.PayloadIdeal
import proofs.«180250_j64364379897856_1_alg».proof.Proof.AggSpec
import Idealize.ShloMosaic.Lib.Pipeline.Value
import Idealize.ShloMosaic.Lib.StableHlo.Run
import Idealize.ShloMosaic.Lib.ValueLayout

set_option maxRecDepth 16384

noncomputable section

open scoped BigOperators

namespace Cert.KernelIdeal.Run

open Cert.KernelIdeal Cert.KernelIdeal.Gen Cert.KernelIdeal.Body Cert.KernelIdeal.Geom
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The target -/

/-- The specification's result array, of the four argument arrays as the region finds them. -/
def target (c : Dev nD) : Buf (Elt Ideal) ((c : Thread nD τ).loc main_v1) :=
  Cert.AggSpec.out (V m c main_arg0) (V m c main_arg1) (V m c main_arg2) (V m c main_arg3)

/-- No host operation before the region writes an argument array: the target is the specification of the arguments as
    launched. -/
theorem target_eq (c : Dev nD) : target m c
    = Cert.AggSpec.out (m ((c.tc : Thread nD τ).loc main_arg0)) (m ((c.tc : Thread nD τ).loc main_arg1))
        (m ((c.tc : Thread nD τ).loc main_arg2)) (m ((c.tc : Thread nD τ).loc main_arg3)) := by
  unfold target
  rw [V_main_arg0, V_main_arg1, V_main_arg2, V_main_arg3]

/-- An entry of the specification reads row `r` of the features and of the neighbours, column `o` of the weights and
    entry `o` of the bias, and nothing else: arrays that agree there give the same entry. -/
theorem entry_eq_of_rows {R R' : Nat} (feat : (⟨2, ![R, 256]⟩ : Shape).Idx → EReal) (nbr : (⟨3, ![R, 16, 256]⟩ : Shape).Idx → EReal)
    (wgt : (⟨2, ![256, 256]⟩ : Shape).Idx → EReal) (bias : Fin 256 → EReal)
    (feat' : (⟨2, ![R', 256]⟩ : Shape).Idx → EReal) (nbr' : (⟨3, ![R', 16, 256]⟩ : Shape).Idx → EReal)
    (wgt' : (⟨2, ![256, 256]⟩ : Shape).Idx → EReal) (bias' : Fin 256 → EReal) (r : Fin R) (r' : Fin R') (o o' : Fin 256)
    (hf : ∀ k, feat (ix2 r k) = feat' (ix2 r' k)) (hn : ∀ n k, nbr (ix3 r n k) = nbr' (ix3 r' n k))
    (hw : ∀ k, wgt (ix2 k o) = wgt' (ix2 k o')) (hb : bias o = bias' o') :
    Cert.AggSpec.entry feat nbr wgt bias r o = Cert.AggSpec.entry feat' nbr' wgt' bias' r' o' := by
  unfold Cert.AggSpec.entry Cert.AggSpec.mixed
  simp only [hf, hn, hw, hb]

/-! ## The proof data -/

/-- After the body at point `t`: the neighbours' and the features' buffers hold their blocks on the rows inside the
    array (filled out with zero, which nothing reads), the weights' and the bias row's buffers their whole arrays, and
    the result's buffer the specification's rows of this block (filled out likewise). -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => iblk m c 2 t
    | ⟨3, _⟩ => iblk m c 3 t
    | ⟨4, _⟩ => win0_4.fill (grid0.coords t) (fun _ => (0 : EReal)) ((win0_4.blk t).view.read (Elt Ideal) (target m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_nbr (c : Dev nD) (t : Fin cfg0.N) :
    (dats m 0 c).after 0 t = win0_0.fill (grid0.coords t) (fun _ => (0 : EReal)) (iblk m c 0 t) := by dsimp only [dats]
theorem after_feat (c : Dev nD) (t : Fin cfg0.N) :
    (dats m 0 c).after 1 t = win0_1.fill (grid0.coords t) (fun _ => (0 : EReal)) (iblk m c 1 t) := by dsimp only [dats]
theorem after_wgt (c : Dev nD) (t : Fin cfg0.N) : (dats m 0 c).after 2 t = iblk m c 2 t := by dsimp only [dats]
theorem after_bias (c : Dev nD) (t : Fin cfg0.N) : (dats m 0 c).after 3 t = iblk m c 3 t := by dsimp only [dats]
theorem after_out (c : Dev nD) (t : Fin cfg0.N) :
    (dats m 0 c).after 4 t
      = win0_4.fill (grid0.coords t) (fun _ => (0 : EReal)) ((win0_4.blk t).view.read (Elt Ideal) (target m c)) := by
  dsimp only [dats]

/-- The two row-blocked inputs are fetched at every point: the body finds the block on the rows inside the array and
    anything past them. -/
theorem before_nbr (c : Dev nD) (t : Fin cfg0.N) (d) :
    (dats m 0 c).before 0 t d = win0_0.fill (grid0.coords t) d (iblk m c 0 t) := by
  unfold Dat.before; rw [if_pos (fetch0_0 t)]; rfl
theorem before_feat (c : Dev nD) (t : Fin cfg0.N) (d) :
    (dats m 0 c).before 1 t d = win0_1.fill (grid0.coords t) d (iblk m c 1 t) := by
  unfold Dat.before; rw [if_pos (fetch0_1 t)]; rfl
/-- The weights and the bias row are fetched once and left in place: the body finds them at every point. -/
theorem before_wgt (c : Dev nD) (t : Fin cfg0.N) (d) : (dats m 0 c).before 2 t d = iblk m c 2 t :=
  before0_2_of m (dats m 0 c) (A_eq m c 2) (after_wgt m c) t d
theorem before_bias (c : Dev nD) (t : Fin cfg0.N) (d) : (dats m 0 c).before 3 t d = iblk m c 3 t :=
  before0_3_of m (dats m 0 c) (A_eq m c 3) (after_bias m c) t d

/-! ## The rows inside the array of what the body stores -/

/-- On the rows of point `t`'s block that lie inside the array, the body's result — computed from the two row blocks
    filled out with anything past the array's end — is the specification's block. -/
theorem stored_rows (c : Dev nD) (t : Fin cfg0.N) (d0 : S800x16x256.Idx → EReal) (d1 : S800x256.Idx → EReal) :
    win0_4.cut (grid0.coords t)
        (k0_pay1 (F := Ideal) (win0_0.fill (grid0.coords t) d0 (iblk m c 0 t)) (win0_1.fill (grid0.coords t) d1 (iblk m c 1 t))
          (iblk m c 2 t) (iblk m c 3 t))
      = (win0_4.blk t).view.read (Elt Ideal) (target m c) := by
  funext j
  obtain ⟨-, -, x0, x1⟩ := out_geom t
  have hj0 : (j 0).val < win0_4.xsize (grid0.coords t) 0 := (j 0).isLt
  have hj1 : (j 1).val < win0_4.xsize (grid0.coords t) 1 := (j 1).isLt
  rw [x0] at hj0
  rw [x1] at hj1
  have hr : (j 0).val < 800 := by omega
  have hR : 800 * t.val + (j 0).val < 50000 := by omega
  -- the entry of the stored block under `j` is at row `j 0`, column `j 1` of the buffer
  show k0_pay1 (F := Ideal) _ _ _ _ (win0_4.xinj (grid0.coords t) j) = _
  rw [show win0_4.xinj (grid0.coords t) j = (ix2 (⟨(j 0).val, hr⟩ : Fin 800) (⟨(j 1).val, hj1⟩ : Fin 256) : S800x256.Idx) from
      funext fun a => by match a with | ⟨0, _⟩ => rfl | ⟨1, _⟩ => rfl,
    Cert.KernelIdeal.Payload.pay_apply,
    out_block c t (target m c) j ⟨800 * t.val + (j 0).val, hR⟩ ⟨(j 1).val, hj1⟩ rfl rfl]
  -- both sides are one entry of the specification; the buffers' row `j 0` is the arrays' row `800·t + j 0`
  show _ = Cert.AggSpec.entry (V m c main_arg0) (V m c main_arg1) (V m c main_arg2) (fun o' => V m c main_arg3 (ix1 o')) _ _
  exact entry_eq_of_rows _ _ _ _ _ _ _ _ _ _ _ _
    (fun k => feat_block m c t d1 _ k hj0 _ rfl) (fun n k => nbr_block m c t d0 _ n k hj0 _ rfl)
    (fun k => wgt_block m c t k _) (bias_block m c t _)

/-! ## The body obligation -/

theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_nbr m c t d0, before_feat m c t d1, before_wgt m c t d2, before_bias m c t d3]
  iapply (sound_kernel (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_0.fill (grid0.coords t) d0 (iblk m c 0 t)) (win0_1.fill (grid0.coords t) d1 (iblk m c 1 t)) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    rw [after_nbr, Window.cut_fill]; iexact H0
  isplitl [H1]
  · iexists d1
    rw [after_feat, Window.cut_fill]; iexact H1
  isplitl [H2]
  · rw [after_wgt]; iexact H2
  isplitl [H3]
  · rw [after_bias]; iexact H3
  · iexists _
    rw [after_out, Window.cut_fill, ← stored_rows m c t d0 d1, Window.fill_cut]; iexact H4

/-! ## The run -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the run terminates, nothing faults, the four argument arrays end as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-! ## The result array after the run -/

/-- Every point writes back the rows of its block inside the array: the specification's block. -/
theorem flushed_out (c : Dev nD) (t : Fin cfg0.N) (hf : (cfg0.win 4).flush t = true) :
    (dats m 0 c).flushed 4 t = ((cfg0.win 4).blk t).view.read (Elt Ideal) (target m c) := by
  show (cfg0.win 4).cut (grid0.coords t) ((dats m 0 c).after 4 t) = _
  rw [after_out]
  exact win0_4.cut_fill _ _ _

/-- Row `R` of the array lies in the block of point `R / 800`: the 63 blocks cover the 50000 rows. -/
theorem rows_covered (c : Dev nD) (i : ((cfg0.win 4).arr.view.loc (c.tc : Thread nD τ)).2.ty.Idx) :
    ∃ t : Fin cfg0.N, (cfg0.win 4).flush t = true ∧ i ∈ ((cfg0.win 4).blk t).view.set := by
  have hi0 : ((i : S50000x256.Idx) 0).val < 50000 := ((i : S50000x256.Idx) 0).isLt
  have hi1 : ((i : S50000x256.Idx) 1).val < 256 := ((i : S50000x256.Idx) 1).isLt
  have hN : cfg0.N = 63 := N_0
  have ht : ((i : S50000x256.Idx) 0).val / 800 < cfg0.N := by rw [hN]; omega
  refine ⟨⟨((i : S50000x256.Idx) 0).val / 800, ht⟩, flush0_4 _, ?_⟩
  obtain ⟨i0, i1, x0, x1⟩ := out_geom ⟨((i : S50000x256.Idx) 0).val / 800, ht⟩
  show i ∈ ((View.whole main_v1).slice (win0_4.rect ⟨((i : S50000x256.Idx) 0).val / 800, ht⟩)).set
  rw [View.set_slice_whole, Rect.mem_set_unit]
  intro a
  match a with
  | ⟨0, _⟩ =>
    show win0_4.index ⟨((i : S50000x256.Idx) 0).val / 800, ht⟩ 0 * 800 ≤ ((i : S50000x256.Idx) 0).val
      ∧ ((i : S50000x256.Idx) 0).val < win0_4.index ⟨((i : S50000x256.Idx) 0).val / 800, ht⟩ 0 * 800
          + win0_4.xsize (grid0.coords ⟨((i : S50000x256.Idx) 0).val / 800, ht⟩) 0
    rw [i0, x0]
    show ((i : S50000x256.Idx) 0).val / 800 * 800 ≤ ((i : S50000x256.Idx) 0).val
      ∧ ((i : S50000x256.Idx) 0).val < ((i : S50000x256.Idx) 0).val / 800 * 800 + min 800 (50000 - 800 * (((i : S50000x256.Idx) 0).val / 800))
    omega
  | ⟨1, _⟩ =>
    show win0_4.index ⟨((i : S50000x256.Idx) 0).val / 800, ht⟩ 1 * 256 ≤ ((i : S50000x256.Idx) 1).val
      ∧ ((i : S50000x256.Idx) 1).val < win0_4.index ⟨((i : S50000x256.Idx) 0).val / 800, ht⟩ 1 * 256
          + win0_4.xsize (grid0.coords ⟨((i : S50000x256.Idx) 0).val / 800, ht⟩) 1
    rw [i1, x1]
    omega

theorem final_out (c : Dev nD) : (dats m 0 c).arrAt 4 cfg0.N = target m c :=
  (dats m 0 c).arrAt_eq_of_cover 4 (target m c) (flushed_out m c) (rows_covered c)

/-- The run, read: the result array ends at the specification's function of the argument arrays as launched, the
    arguments unchanged. -/
theorem run : θ_run defs (onTc (τ := τ) (main (F := Ideal))) ⟨m, fun _ => 0, ρ⟩ (fun r => ∀ c : Dev nD,
      r.2.mem ((c.tc : Thread nD τ).loc main_v1)
        = Cert.AggSpec.out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans ((final_out m c).trans (target_eq m c)),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩) (run_main m ρ)

end Cert.KernelIdeal.Run

end
-- ==== Proof.RefIsSpec.lean ====
/-
  The reference program, read one element at a time, is the specification's function.

  Reading the last stage at an index `i = (r, o)` and every stage below it gives
    max ((∑ k, (features[r, k] + (0 + ∑ n, neighbours[r, n, k]) / 16) · weight[k, o]) + bias[o]) 0,
  where the indices are the stages' composed index functions. Each of those is the index with the expected
  coordinates, the zero word is the extended real 0 (so the reduction's initial value drops out), and the
  divisor is the same word on both sides, so nothing about it is evaluated.
-/
import proofs.«180250_j64364379897856_1_alg».proof.Proof.Gen.ReferenceIdeal.Read
import proofs.«180250_j64364379897856_1_alg».proof.Proof.AggSpec
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The contraction reads the left operand at row `i 0`, column `k`. -/
theorem lidx_eq (i : S50000x256.Idx) (k : Fin 256) :
    Read.lidx_main_v4 i k = ix2 (n0 := 50000) (n1 := 256) (i 0) k :=
  funext fun a => Fin.ext (by match a with | ⟨0, _⟩ => rfl | ⟨1, _⟩ => rfl)

/-- The contraction reads the weights at row `k`, column `i 1`. -/
theorem ridx_eq (i : S50000x256.Idx) (k : Fin 256) :
    Read.ridx_main_v4 i k = ix2 (n0 := 256) (n1 := 256) k (i 1) :=
  funext fun a => Fin.ext (by match a with | ⟨0, _⟩ => rfl | ⟨1, _⟩ => rfl)

/-- The two broadcasts of the bias read it at the result's column. -/
theorem bidx_eq (i : S50000x256.Idx) : Read.idx_main_v5 (Read.idx_main_v6 i) = ix1 (n := 256) (i 1) :=
  funext fun a => Fin.ext (by match a with | ⟨0, _⟩ => rfl)

/-- The neighbour sum under the contraction, at row `i 0` and column `k`, reads neighbour `n` at `(i 0, n, k)`. -/
theorem nidx_eq (i : S50000x256.Idx) (k : Fin 256) (n : Fin 16) :
    Read.idx_main_v0 (Read.lidx_main_v4 i k) n = ix3 (n0 := 50000) (n1 := 16) (n2 := 256) (i 0) n k :=
  funext fun a => Fin.ext (by match a with | ⟨0, _⟩ => rfl | ⟨1, _⟩ => rfl | ⟨2, _⟩ => rfl)

theorem val_eq_spec (x0 : (⟨S50000x256, .f32⟩ : BufTy).Contents (Elt Ideal)) (x1 : (⟨S50000x16x256, .f32⟩ : BufTy).Contents (Elt Ideal))
    (x2 : (⟨S256x256, .f32⟩ : BufTy).Contents (Elt Ideal)) (x3 : (⟨S256, .f32⟩ : BufTy).Contents (Elt Ideal)) :
    Cert.ReferenceIdeal.Read.val_main_v8 (F := Ideal) x0 x1 x2 x3 = Cert.AggSpec.out x0 x1 x2 x3 := by
  funext i
  -- read the last stage at `i`, then every stage below it down to the arguments
  rw [Read.val_main_v8_apply, Read.val_main_v7_apply, Read.val_main_v4_apply, Read.val_main_v6_apply,
    Read.val_main_v5_apply, Read.val_main_call0_v0_apply, Read.val_main_call0_cst_apply, bidx_eq]
  simp only [Read.val_main_v3_apply, Read.val_main_v2_apply, Read.val_main_v0_apply,
    Read.val_main_v1_apply, Read.val_main_cst_0_apply, Read.val_main_cst_apply]
  -- the composed index functions are the indices with the expected coordinates (innermost first)
  simp only [nidx_eq i]
  simp only [lidx_eq i, ridx_eq i]
  -- the operations are the extended reals'; the zero word is 0 and drops out of the neighbour sum
  simp only [Ideal.maximumf_def, Ideal.addf_def, Ideal.hostDivf_def, Ideal.ofBits_def, Ideal.ofBits_zero_f32, zero_add]
  unfold Cert.AggSpec.out Cert.AggSpec.entry Cert.AggSpec.mixed
  rfl

end Cert.ReferenceIdeal.RefValue

end
-- ==== Proof.lean ====
/-
  The kernel and its reference are one function.

  For node `r` and output feature `o` both compute
      out[r, o] = max (∑ k, (features[r, k] + (∑ n, neighbours[r, n, k]) / 16) · weight[k, o] + bias[o]) 0
  over the extended reals (Proof/AggSpec.lean). The reference does so on whole arrays, one host operation after the
  other (Proof/RefIsSpec.lean reads its run index by index). The kernel does so on 63 row blocks of 800 rows, the last
  reaching 400 rows past the 50000-row arrays: a result row depends on the same row of the inputs only, so the rows
  inside the arrays come out right whatever the staging buffers hold past the end (Proof/PayloadIdeal.lean: one block's
  arithmetic at an index; Proof/IdealGeom.lean: where a block's rows sit in the arrays; Proof/IdealRun.lean: the run and
  the cover of the result by the blocks' rows). No rearrangement of a sum is involved — both sides add and multiply in
  the same order — so the inputs' finiteness is never used.
  The frames: the word-level kernel's by a run that constrains nothing of what the body leaves in the buffers
  (Proof/KernelBits.lean: at the word level the matrix product is not read row by row, and nothing is claimed of its
  value); the idealized kernel's from its value run; the reference's from its run with the result dropped.
-/
import proofs.«180250_j64364379897856_1_alg».proof.Defs
import proofs.«180250_j64364379897856_1_alg».proof.Proof.Gen.Kernel
import proofs.«180250_j64364379897856_1_alg».proof.Proof.Gen.KernelIdeal
import proofs.«180250_j64364379897856_1_alg».proof.Proof.Gen.ReferenceIdeal
import proofs.«180250_j64364379897856_1_alg».proof.Proof.Gen.Pre_finite_inputs
import proofs.«180250_j64364379897856_1_alg».proof.Proof.Gen.ReferenceIdeal.Run
import proofs.«180250_j64364379897856_1_alg».proof.Proof.Gen.ReferenceIdeal.Read
import proofs.«180250_j64364379897856_1_alg».proof.Proof.KernelBits
import proofs.«180250_j64364379897856_1_alg».proof.Proof.IdealRun
import proofs.«180250_j64364379897856_1_alg».proof.Proof.RefIsSpec
import Idealize.ShloMosaic.Adequacy
import Idealize.ShloMosaic.Init

noncomputable section

namespace Cert.Proof

open Idealize.ShloMosaic Idealize.SL.Sem

theorem frame_kernel : Cert.frame_Kernel := Cert.Kernel.BitsFrame.frame

theorem frame_kernelIdeal : Cert.frame_KernelIdeal := fun m ρ _ => Cert.KernelIdeal.Run.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- Both runs end with the result array at the specification's function of the (agreeing) argument arrays. -/
theorem algebraic : Cert.algebraic_KernelIdeal_ReferenceIdeal := by
  intro m ρ m' ρ' _ hagree
  refine ⟨fun c => Cert.AggSpec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.val_eq_spec,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
